-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x63 : S_.BroadcastsInDim S2048x63 (![] : Fin 0 → Fin S2048x63.rank)
  reducesTo_S2048x63_S_d0_1 : S2048x63.ReducesTo [0, 1] S_
  bcast_S_S63 : S_.BroadcastsInDim S63 (![] : Fin 0 → Fin S63.rank)
  reducesTo_S63_S_d0 : S63.ReducesTo [0] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  main_v18

def fn {F : FTy → Type} [FloatOps F] (main_arg0 : FVec F S32768x2048 .f32) (main_arg1 : FVec F S2048x63 .f32) (main_arg2 : FVec F S63 .f32) (main_arg3 : FVec F S64x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x63 .f32 := Host.absf main_arg1
  let main_cst_0 : FVec F S_ .f32 := constant S_ .f32 0x7F800000#32
  let main_v5 : FVec F S2048x63 .f32 := broadcastInDim S2048x63 ![] bcast_S_S2048x63 main_cst_0
  let main_v6 : IVec S2048x63 1 := cmpf .olt main_v4 main_v5
  let main_c_1 : IVec S_ 1 := constantI S_ 1 1#1
  let main_v7 : IVec S_ 1 := (fun x v => Host.reduce IntOp.andi x v reducesTo_S2048x63_S_d0_1 h_S_) main_v6 main_c_1
  let main_v8 : IVec S_ 1 := andi main_v3 main_v7
  let main_v9 : FVec F S63 .f32 := Host.absf main_arg2
  let main_cst_2 : FVec F S_ .f32 := constant S_ .f32 0x7F800000#32
  let main_v10 : FVec F S63 .f32 := broadcastInDim S63 ![] bcast_S_S63 main_cst_2
  let main_v11 : IVec S63 1 := cmpf .olt main_v9 main_v10
  let main_c_3 : IVec S_ 1 := constantI S_ 1 1#1
  let main_v12 : IVec S_ 1 := (fun x v => Host.reduce IntOp.andi x v reducesTo_S63_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_v13 main_v16
-- ==== Kernel.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S512x2048 : Shape := ⟨2, ![512, 2048]⟩
abbrev S512x63 : Shape := ⟨2, ![512, 63]⟩
abbrev S1x63 : Shape := ⟨2, ![1, 63]⟩
abbrev S512x1 : Shape := ⟨2, ![512, 1]⟩
abbrev S512x2 : Shape := ⟨2, ![512, 2]⟩
abbrev S512x4 : Shape := ⟨2, ![512, 4]⟩
abbrev S512x8 : Shape := ⟨2, ![512, 8]⟩
abbrev S512x16 : Shape := ⟨2, ![512, 16]⟩
abbrev S512x32 : Shape := ⟨2, ![512, 32]⟩
abbrev S512x64 : Shape := ⟨2, ![512, 64]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x63, .f32⟩
  | .hbm, ⟨2, _⟩ => ⟨S63, .f32⟩
  | .hbm, ⟨3, _⟩ => ⟨S64x2048, .f32⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x63, .f32⟩
  | .local _ .vmem, ⟨3, _⟩ => ⟨S63, .f32⟩
  | .local _ .vmem, ⟨4, _⟩ => ⟨S64x2048, .f32⟩
  | .local _ .vmem, ⟨5, _⟩ => ⟨S512x2048, .f32⟩
  | .local _ .vmem, ⟨6, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x63 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S2048x63_S2048x63_0_0 : ∀ a, (![0, 0] : Fin 2 → Nat) a + S2048x63.size a ≤ S2048x63.size a
  h_S2048x63 : 0 < S2048x63.numel
  inb_S63_S63_0 : ∀ a, (![0] : Fin 1 → Nat) a + S63.size a ≤ S63.size a
  h_S63 : 0 < S63.numel
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  shapeCasts_S63_S1x63 : S63.ShapeCasts S1x63
  broadcasts_S1x63_S512x63 : S1x63.Broadcasts S512x63
  slices_S512x63_o0_0_S512x1 : S512x63.Slices ![0, 0] S512x1
  concatenates_S512x1_S512x1_S512x2_d1 : Shape.Concatenates [S512x1, S512x1] S512x2 1
  slices_S512x63_o0_1_S512x2 : S512x63.Slices ![0, 1] S512x2
  concatenates_S512x2_S512x2_S512x4_d1 : Shape.Concatenates [S512x2, S512x2] S512x4 1
  slices_S512x63_o0_3_S512x4 : S512x63.Slices ![0, 3] S512x4
  concatenates_S512x4_S512x4_S512x8_d1 : Shape.Concatenates [S512x4, S512x4] S512x8 1
  slices_S512x63_o0_7_S512x8 : S512x63.Slices ![0, 7] S512x8
  concatenates_S512x8_S512x8_S512x16_d1 : Shape.Concatenates [S512x8, S512x8] S512x16 1
  slices_S512x63_o0_15_S512x16 : S512x63.Slices ![0, 15] S512x16
  concatenates_S512x16_S512x16_S512x32_d1 : Shape.Concatenates [S512x16, S512x16] S512x32 1
  slices_S512x63_o0_31_S512x32 : S512x63.Slices ![0, 31] S512x32
  concatenates_S512x32_S512x32_S512x64_d1 : Shape.Concatenates [S512x32, S512x32] S512x64 1
  dot_S512x2048_S2048x63_S512x63_1_0_0_1_n_n_wf : DotDims.WF S512x2048 S2048x63 S512x63 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x63.size a ≤ S2048x63.size a
  hwx0_1 : ∀ i : grid0.Coords, EltTy.bits .f32 = 32 ∨ (Rect.block (s := S2048x63) S2048x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63.size a ≤ S63.size a
  hwx0_2 : ∀ i : grid0.Coords, EltTy.bits .f32 = 32 ∨ (Rect.block (s := S63) S63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

def dot_S512x2048_S2048x63_S512x63_1_0_0_1_n_n : DotDims S512x2048 S2048x63 S512x63 where
  lhsContracting := [1]
  rhsContracting := [0]
  lhsNonContracting := [0]
  rhsNonContracting := [1]
  lhsBatch := []
  rhsBatch := []
  wf := dot_S512x2048_S2048x63_S512x63_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x63.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S32768x63 : Shape := ⟨2, ![32768, 63]⟩
abbrev S1x63 : Shape := ⟨2, ![1, 63]⟩
abbrev S_ : Shape := ⟨0, ![]⟩
abbrev S32768x1 : Shape := ⟨2, ![32768, 1]⟩
abbrev S32768x2 : Shape := ⟨2, ![32768, 2]⟩
abbrev S32768x4 : Shape := ⟨2, ![32768, 4]⟩
abbrev S32768x8 : Shape := ⟨2, ![32768, 8]⟩
abbrev S32768x16 : Shape := ⟨2, ![32768, 16]⟩
abbrev S32768x32 : Shape := ⟨2, ![32768, 32]⟩
abbrev S32768x64 : Shape := ⟨2, ![32768, 64]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x63, .f32⟩
  | .hbm, ⟨2, _⟩ => ⟨S63, .f32⟩
  | .hbm, ⟨3, _⟩ => ⟨S64x2048, .f32⟩
  | .hbm, ⟨4, _⟩ => ⟨S32768x63, .f32⟩
  | .hbm, ⟨5, _⟩ => ⟨S1x63, .f32⟩
  | .hbm, ⟨6, _⟩ => ⟨S32768x63, .f32⟩
  | .hbm, ⟨7, _⟩ => ⟨S32768x63, .f32⟩
  | .hbm, ⟨8, _⟩ => ⟨S32768x63, .f32⟩
  | .hbm, ⟨9, _⟩ => ⟨S32768x63, .f32⟩
  | .hbm, ⟨10, _⟩ => ⟨S_, .f32⟩
  | .hbm, ⟨11, _⟩ => ⟨S32768x63, .f32⟩
  | .hbm, ⟨12, _⟩ => ⟨S32768x63, .f32⟩
  | .hbm, ⟨13, _⟩ => ⟨S_, .f32⟩
  | .hbm, ⟨14, _⟩ => ⟨S32768x63, .f32⟩
  | .hbm, ⟨15, _⟩ => ⟨S32768x63, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2, .f32⟩
  | .hbm, ⟨25, _⟩ => ⟨S32768x2, .f32⟩
  | .hbm, ⟨26, _⟩ => ⟨S32768x2, .f32⟩
  | .hbm, ⟨27, _⟩ => ⟨S_, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S32768x4, .f32⟩
  | .hbm, ⟨32, _⟩ => ⟨S32768x4, .f32⟩
  | .hbm, ⟨33, _⟩ => ⟨S32768x4, .f32⟩
  | .hbm, ⟨34, _⟩ => ⟨S_, .f32⟩
  | .hbm, ⟨35, _⟩ => ⟨S32768x4, .f32⟩
  | .hbm, ⟨36, _⟩ => ⟨S32768x4, .f32⟩
  | .hbm, ⟨37, _⟩ => ⟨S32768x4, .f32⟩
  | .hbm, ⟨38, _⟩ => ⟨S32768x8, .f32⟩
  | .hbm, ⟨39, _⟩ => ⟨S32768x8, .f32⟩
  | .hbm, ⟨40, _⟩ => ⟨S32768x8, .f32⟩
  | .hbm, ⟨41, _⟩ => ⟨S_, .f32⟩
  | .hbm, ⟨42, _⟩ => ⟨S32768x8, .f32⟩
  | .hbm, ⟨43, _⟩ => ⟨S32768x8, .f32⟩
  | .hbm, ⟨44, _⟩ => ⟨S32768x8, .f32⟩
  | .hbm, ⟨45, _⟩ => ⟨S32768x16, .f32⟩
  | .hbm, ⟨46, _⟩ => ⟨S32768x16, .f32⟩
  | .hbm, ⟨47, _⟩ => ⟨S32768x16, .f32⟩
  | .hbm, ⟨48, _⟩ => ⟨S_, .f32⟩
  | .hbm, ⟨49, _⟩ => ⟨S32768x16, .f32⟩
  | .hbm, ⟨50, _⟩ => ⟨S32768x16, .f32⟩
  | .hbm, ⟨51, _⟩ => ⟨S32768x16, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S_, .f32⟩
  | .hbm, ⟨56, _⟩ => ⟨S32768x32, .f32⟩
  | .hbm, ⟨57, _⟩ => ⟨S32768x32, .f32⟩
  | .hbm, ⟨58, _⟩ => ⟨S32768x32, .f32⟩
  | .hbm, ⟨59, _⟩ => ⟨S32768x64, .f32⟩
  | .hbm, ⟨60, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  bcast_S63_S1x63_1 : S63.BroadcastsInDim S1x63 (![1] : Fin 1 → Fin S1x63.rank)
  bcast_S1x63_S32768x63_0_1 : S1x63.BroadcastsInDim S32768x63 (![0, 1] : Fin 2 → Fin S32768x63.rank)
  bcast_S_S32768x63 : S_.BroadcastsInDim S32768x63 (![] : Fin 0 → Fin S32768x63.rank)
  bcast_S_S32768x1 : S_.BroadcastsInDim S32768x1 (![] : Fin 0 → Fin S32768x1.rank)
  slices_S32768x63_S32768x1_0_0 : S32768x63.Slices ![0, 0] S32768x1
  concatenates_S32768x1_S32768x1_S32768x2_d1 : Shape.Concatenates [S32768x1, S32768x1] S32768x2 1
  slices_S32768x63_S32768x2_0_1 : S32768x63.Slices ![0, 1] S32768x2
  bcast_S_S32768x2 : S_.BroadcastsInDim S32768x2 (![] : Fin 0 → Fin S32768x2.rank)
  concatenates_S32768x2_S32768x2_S32768x4_d1 : Shape.Concatenates [S32768x2, S32768x2] S32768x4 1
  slices_S32768x63_S32768x4_0_3 : S32768x63.Slices ![0, 3] S32768x4
  bcast_S_S32768x4 : S_.BroadcastsInDim S32768x4 (![] : Fin 0 → Fin S32768x4.rank)
  concatenates_S32768x4_S32768x4_S32768x8_d1 : Shape.Concatenates [S32768x4, S32768x4] S32768x8 1
  slices_S32768x63_S32768x8_0_7 : S32768x63.Slices ![0, 7] S32768x8
  bcast_S_S32768x8 : S_.BroadcastsInDim S32768x8 (![] : Fin 0 → Fin S32768x8.rank)
  concatenates_S32768x8_S32768x8_S32768x16_d1 : Shape.Concatenates [S32768x8, S32768x8] S32768x16 1
  slices_S32768x63_S32768x16_0_15 : S32768x63.Slices ![0, 15] S32768x16
  bcast_S_S32768x16 : S_.BroadcastsInDim S32768x16 (![] : Fin 0 → Fin S32768x16.rank)
  concatenates_S32768x16_S32768x16_S32768x32_d1 : Shape.Concatenates [S32768x16, S32768x16] S32768x32 1
  slices_S32768x63_S32768x32_0_31 : S32768x63.Slices ![0, 31] S32768x32
  bcast_S_S32768x32 : S_.BroadcastsInDim S32768x32 (![] : Fin 0 → Fin S32768x32.rank)
  concatenates_S32768x32_S32768x32_S32768x64_d1 : Shape.Concatenates [S32768x32, S32768x32] S32768x64 1
  dot_S32768x2048_S2048x63_S32768x63_1_0_0_1_n_n_wf : DotDims.WF S32768x2048 S2048x63 S32768x63 [1] [0] [0] [1] [] []
  dot_S32768x64_S64x2048_S32768x2048_1_0_0_1_n_n_wf : DotDims.WF S32768x64 S64x2048 S32768x2048 [1] [0] [0] [1] [] []

variable [Facts₀]

def dot_S32768x2048_S2048x63_S32768x63_1_0_0_1_n_n : DotDims S32768x2048 S2048x63 S32768x63 where
  lhsContracting := [1]
  rhsContracting := [0]
  lhsNonContracting := [0]
  rhsNonContracting := [1]
  lhsBatch := []
  rhsBatch := []
  wf := dot_S32768x2048_S2048x63_S32768x63_1_0_0_1_n_n_wf
def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf

class Facts : Prop extends Facts₀ where

variable [Facts]
-- ==== Proof.GatingTree.lean ====
/-
  The gating tree of a hierarchical mixture of experts, as plain mathematics on the extended reals.

  A complete binary tree of depth six has 63 internal nodes, numbered level by level (node 0 the root, nodes 1–2 its
  children, 3–6 theirs, … 31–62 the parents of the leaves), and 64 leaves.  Each internal node `c` carries a gate
  `g c`, the logistic function of an affine form of the input row.  The weight of a node is built level by level: the
  root has weight one; going from a level with `n` nodes at gate offset `off` to the next level with `2 n` nodes, node
  `j < n` of the new level is the LEFT child of old node `j` with weight `g (off + j) · T j`, and node `n + j` is the
  RIGHT child of old node `j` with weight `(1 − g (off + j)) · T j` — "lefts first, then rights", which is the order a
  concatenation `[parents · running | (1 − parents) · running]` produces.  The output row is the leaf weights times
  the table of leaf responses.

  `level_apply` reads one such concatenation step, written with the vector operations both programs use (a column
  slice of the gate matrix, a product, one minus, a product, a concatenation along the columns), at row `p` and
  column `j`, for matrices with any number of rows: both programs run these steps, one on a block of rows, the other on
  the whole array.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GatingTree

open Idealize.ShloMosaic Idealize.ShloMosaic.ValueIdx

/-- The single-precision pattern of the number one, as the extended real it denotes. -/
abbrev one : EReal := Ideal.ofBits .f32 0x3F800000#32

/-- It is the number one. -/
theorem one_eq : one = 1 := by
  show Ideal.ofBits .f32 0x3F800000#32 = 1
  simp [Ideal.ofBits, Ideal.ieee, -EReal.coe_mul]; norm_num

/-- One level of the tree: from the weights `T` of a level of `n` nodes whose gates sit at `off, …, off + n − 1`, the
    weights of the `2 n` children, left children first. -/
def split (g : ℕ → EReal) (off n : ℕ) (T : ℕ → EReal) : ℕ → EReal :=
  fun j => if j < n then g (off + j) * T j else (one - g (off + (j - n))) * T (j - n)

/-- The weights of the 64 leaves: six levels from the root's weight one. -/
def leaves (g : ℕ → EReal) : ℕ → EReal :=
  split g 31 32 (split g 15 16 (split g 7 8 (split g 3 4 (split g 1 2 (split g 0 1 fun _ => one)))))

/-- The gate of internal node `c` for one input row: the logistic function of the row's product with column `c` of
    the weights plus the bias of `c`. (Zero past the last node, where nothing reads it.) -/
def gate (xrow : Fin 2048 → EReal) (w : FVec Ideal ⟨2, ![2048, 63]⟩ .f32) (b : FVec Ideal ⟨1, ![63]⟩ .f32) (c : ℕ) : EReal :=
  if h : c < 63 then Ideal.logistic ((∑ k : Fin 2048, xrow k * w (ix2 k ⟨c, h⟩)) + b (ix1 ⟨c, h⟩)) else 0

/-- One output row at column `q`: the leaf weights of the row against column `q` of the responses. -/
def rowOut (xrow : Fin 2048 → EReal) (w : FVec Ideal ⟨2, ![2048, 63]⟩ .f32) (b : FVec Ideal ⟨1, ![63]⟩ .f32)
    (resp : FVec Ideal ⟨2, ![64, 2048]⟩ .f32) (q : Fin 2048) : EReal :=
  ∑ l : Fin 64, leaves (gate xrow w b) l.val * resp (ix2 l q)

/-- The whole result: every row of the input through the tree. -/
def G (x : FVec Ideal ⟨2, ![32768, 2048]⟩ .f32) (w : FVec Ideal ⟨2, ![2048, 63]⟩ .f32) (b : FVec Ideal ⟨1, ![63]⟩ .f32)
    (resp : FVec Ideal ⟨2, ![64, 2048]⟩ .f32) : FVec Ideal ⟨2, ![32768, 2048]⟩ .f32 :=
  fun i => rowOut (fun k => x (ix2 ⟨(i 0).val, idx2_lt0 i⟩ k)) w b resp ⟨(i 1).val, idx2_lt1 i⟩

theorem G_apply (x : FVec Ideal ⟨2, ![32768, 2048]⟩ .f32) (w : FVec Ideal ⟨2, ![2048, 63]⟩ .f32) (b : FVec Ideal ⟨1, ![63]⟩ .f32)
    (resp : FVec Ideal ⟨2, ![64, 2048]⟩ .f32) (r : Fin 32768) (q : Fin 2048) :
    G x w b resp (ix2 r q) = rowOut (fun k => x (ix2 r k)) w b resp q := rfl

/-- ONE LEVEL, READ AT AN ENTRY. For matrices of `R` rows: `gt` the `[R, 63]` gates, `run` the `[R, n]` weights of a
    level, `ones` an `[R, n]` matrix of ones. The concatenation along the columns of `slice · run` and
    `(ones − slice) · run`, where `slice` is columns `off … off + n − 1` of `gt`, read at row `p` and column `j`, is
    the next level's weight `split g off n T j`, when row `p` of `gt` is `g` and row `p` of `run` is `T`. -/
theorem level_apply (R n m off : ℕ) (hm : m = n + n) (hoff : off + n ≤ 63)
    (gt : FVec Ideal ⟨2, ![R, 63]⟩ .f32) (run ones : FVec Ideal ⟨2, ![R, n]⟩ .f32)
    (hs : (⟨2, ![R, 63]⟩ : Shape).Slices ![0, off] ⟨2, ![R, n]⟩)
    (hc : Shape.Concatenates [(⟨2, ![R, n]⟩ : Shape), ⟨2, ![R, n]⟩] ⟨2, ![R, m]⟩ 1)
    (p : Fin R) (g T : ℕ → EReal)
    (hg : ∀ (c : ℕ) (h : c < 63), gt (ix2 p ⟨c, h⟩) = g c)
    (hT : ∀ (j : ℕ) (h : j < n), run (ix2 p ⟨j, h⟩) = T j)
    (hones : ∀ i, ones i = one)
    (j : ℕ) (h : j < m) :
    concatenate (⟨2, ![R, m]⟩ : Shape) 1
      [⟨(⟨2, ![R, n]⟩ : Shape), mulf (F := Ideal) (extractStridedSlice ⟨2, ![R, n]⟩ ![0, off] gt hs) run⟩,
       ⟨(⟨2, ![R, n]⟩ : Shape), mulf (F := Ideal) (subf (F := Ideal) ones (extractStridedSlice ⟨2, ![R, n]⟩ ![0, off] gt hs)) run⟩]
      hc (ix2 p ⟨j, h⟩)
    = split g off n T j := by
  unfold split
  by_cases hj : j < n
  · rw [if_pos hj]
    refine (concatenate_pair_apply_left 1 _ _ hc (ix2 p ⟨j, h⟩) rfl (ix2 p ⟨j, hj⟩) (fun b => ?_)).trans ?_
    · match b with
      | ⟨0, _⟩ => rfl
      | ⟨1, _⟩ => rfl
    · show (extractStridedSlice ⟨2, ![R, n]⟩ ![0, off] gt hs (ix2 p ⟨j, hj⟩)) * run (ix2 p ⟨j, hj⟩) = _
      rw [slice2_axis1_apply off gt hs p ⟨j, hj⟩ ⟨off + j, by omega⟩ rfl, hg, hT]
  · rw [if_neg hj]
    have hjn : j - n < n := by omega
    refine (concatenate_pair_apply_right 1 _ _ hc (ix2 p ⟨j, h⟩) rfl rfl (ix2 p ⟨j - n, hjn⟩) (fun b hb => ?_) ?_).trans ?_
    · match b with
      | ⟨0, _⟩ => rfl
      | ⟨1, _⟩ => exact absurd rfl hb
    · show (j - n) + n = j
      omega
    · show (ones (ix2 p ⟨j - n, hjn⟩) - extractStridedSlice ⟨2, ![R, n]⟩ ![0, off] gt hs (ix2 p ⟨j - n, hjn⟩)) * run (ix2 p ⟨j - n, hjn⟩) = _
      rw [slice2_axis1_apply off gt hs p ⟨j - n, hjn⟩ ⟨off + (j - n), by omega⟩ rfl, hg, hT, hones]

end Cert.GatingTree

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.KernelBlock.lean ====
/-
  What the kernel's body computes for one block of 512 rows, entry by entry: row `p` of the block through the gating
  tree.

  The body multiplies the block into the weights (a matrix product into a zero accumulator: a plain sum at each
  entry; the change of float format before it is the identity on the extended reals), adds the bias (made a row, spread
  down the rows) and applies the logistic function: row `p` of the result is `gate` of row `p` of the block. Then the six
  levels, each one `level_apply` at 512 rows, and the closing product of the `[512, 64]` leaf weights with the responses.
-/
import proofs.«106379_j43379169690208_1_alg».proof.Proof.Gen.KernelIdeal.Skeleton
import proofs.«106379_j43379169690208_1_alg».proof.Proof.GatingTree
import proofs.«106379_j43379169690208_1_alg».proof.Proof.LibRowOps

noncomputable section

open scoped BigOperators

namespace Cert.KernelIdeal.Block

open Cert.KernelIdeal Cert.KernelIdeal.Gen Idealize.ShloMosaic Idealize.ShloMosaic.ValueIdx Cert.GatingTree Cert

variable (v0 : Vec Ideal S512x2048 .f32) (v1 : Vec Ideal S2048x63 .f32) (v2 : Vec Ideal S63 .f32)

/-- The two matrix products are plain ones: rows by columns, one contracted axis. -/
theorem dot_gates_plain : dot_S512x2048_S2048x63_S512x63_1_0_0_1_n_n = DotDims.plain 512 2048 63 := rfl
theorem dot_out_plain : dot_S512x64_S64x2048_S512x2048_1_0_0_1_n_n = DotDims.plain 512 64 2048 := rfl

/-- The gate of node `c` in row `p` of the block. -/
theorem gates (p : Fin 512) (c : ℕ) (h : c < 63) :
    k0_pay2 (F := Ideal) v0 v1 v2 (ix2 p ⟨c, h⟩) = gate (fun k => v0 (ix2 p k)) v1 v2 c := by
  have e1 : matmul dot_S512x2048_S2048x63_S512x63_1_0_0_1_n_n none (truncf (F := Ideal) (φ := .f32) .bf16 v0 bitsLt_bf16_f32) (truncf (F := Ideal) (φ := .f32) .bf16 v1 bitsLt_bf16_f32)
      (constant (F := Ideal) S512x63 .f32 0x00000000#32) (ix2 p (⟨c, h⟩ : Fin 63))
      = ∑ k : Fin 2048, v0 (ix2 p k) * v1 (ix2 k ⟨c, h⟩) := by
    rw [dot_gates_plain]
    exact LibRowOps.matmul_plain_zero_apply 512 2048 63 _ _ p ⟨c, h⟩
  have e2 : broadcastTo S512x63 (shapeCast S1x63 v2 shapeCasts_S63_S1x63) broadcasts_S1x63_S512x63 (ix2 p (⟨c, h⟩ : Fin 63))
      = v2 (ix1 ⟨c, h⟩) :=
    (broadcastTo_1b_ab_apply _ _ p ⟨c, h⟩).trans (shapeCast_a_1a_apply v2 _ 0 ⟨c, h⟩)
  unfold k0_pay2 gate
  rw [dif_pos h]
  show Ideal.logistic (matmul dot_S512x2048_S2048x63_S512x63_1_0_0_1_n_n none (truncf (F := Ideal) (φ := .f32) .bf16 v0 bitsLt_bf16_f32) (truncf (F := Ideal) (φ := .f32) .bf16 v1 bitsLt_bf16_f32)
      (constant (F := Ideal) S512x63 .f32 0x00000000#32) (ix2 p (⟨c, h⟩ : Fin 63))
    + broadcastTo S512x63 (shapeCast S1x63 v2 shapeCasts_S63_S1x63) broadcasts_S1x63_S512x63 (ix2 p (⟨c, h⟩ : Fin 63))) = _
  rw [e1, e2]

/-- Row `p` of the weights of the 32 parents of the leaves: five levels from the root's weight one, each read
    through the level before. -/
theorem parents (p : Fin 512) (j : ℕ) (h : j < 32) :
    k0_pay3 (F := Ideal) v0 v1 v2 (ix2 p ⟨j, h⟩)
      = split (gate (fun k => v0 (ix2 p k)) v1 v2) 15 16
          (split (gate (fun k => v0 (ix2 p k)) v1 v2) 7 8
            (split (gate (fun k => v0 (ix2 p k)) v1 v2) 3 4
              (split (gate (fun k => v0 (ix2 p k)) v1 v2) 1 2
                (split (gate (fun k => v0 (ix2 p k)) v1 v2) 0 1 (fun _ => one))))) j := by
  unfold k0_pay3
  exact level_apply 512 16 32 15 rfl (by norm_num) (k0_pay2 v0 v1 v2) _ (broadcast S512x16 one) _ _ p _ _ (gates v0 v1 v2 p)
    (fun j h => level_apply 512 8 16 7 rfl (by norm_num) (k0_pay2 v0 v1 v2) _ (broadcast S512x8 one) _ _ p _ _ (gates v0 v1 v2 p)
      (fun j h => level_apply 512 4 8 3 rfl (by norm_num) (k0_pay2 v0 v1 v2) _ (broadcast S512x4 one) _ _ p _ _ (gates v0 v1 v2 p)
        (fun j h => level_apply 512 2 4 1 rfl (by norm_num) (k0_pay2 v0 v1 v2) _ (broadcast S512x2 one) _ _ p _ _ (gates v0 v1 v2 p)
          (fun j h => level_apply 512 1 2 0 rfl (by norm_num) (k0_pay2 v0 v1 v2) _ (broadcast S512x1 one) _ _ p _ _ (gates v0 v1 v2 p)
            (fun _ _ => rfl) (fun _ => rfl) j h)
          (fun _ => rfl) j h)
        (fun _ => rfl) j h)
      (fun _ => rfl) j h)
    (fun _ => rfl) j h

/-- ONE ENTRY OF WHAT THE BODY STORES: at row `p` and column `q` of the block, the leaf weights of row `p` (the last
    level, over the parents' weights) against column `q` of the responses. -/
theorem stored_apply (v3 : Vec Ideal S64x2048 .f32) (p : Fin 512) (q : Fin 2048) :
    k0_pay1 (F := Ideal) v3 (k0_pay3 v0 v1 v2) (k0_pay4 v0 v1 v2) (k0_pay5 v0 v1 v2) (Scalar.ofBits .f32 0x3F800000#32) (ix2 p q)
      = rowOut (fun k => v0 (ix2 p k)) v1 v2 v3 q := by
  unfold k0_pay1 rowOut
  rw [dot_out_plain]
  refine (LibRowOps.matmul_plain_zero_apply 512 64 2048 _ _ p q).trans (Finset.sum_congr rfl fun l _ => ?_)
  refine congrArg (· * v3 (ix2 l q)) ?_
  unfold k0_pay5 k0_pay4 leaves
  refine (truncf_apply (φ := .f32) (ψ := .bf16) _ bitsLt_bf16_f32 (ix2 p l)).trans ?_
  exact level_apply 512 32 64 31 rfl (by norm_num) (k0_pay2 v0 v1 v2) (k0_pay3 v0 v1 v2) (broadcast S512x32 one)
    slices_S512x63_o0_31_S512x32 concatenates_S512x32_S512x32_S512x64_d1 p _ _
    (gates v0 v1 v2 p) (parents v0 v1 v2 p) (fun _ => rfl) l.val l.isLt

end Cert.KernelIdeal.Block

end
-- ==== Proof.KernelArray.lean ====
/-
  From blocks to the array: the kernel's result array is the gating tree's output `GatingTree.G` of its arguments.

  The grid has 64 points. Point `t` reads rows `512 t … 512 t + 511` of `x` (its window's block index is `(t, 0)`) and the
  whole of `w`, `b` and the responses (block index zero, the block the whole array), and writes rows
  `512 t … 512 t + 511` of the result. What it writes at row `p`, column `q` of its block is the tree's output for row `p`
  of its block of `x`, that is for row `512 t + p` of `x`: entry `(512 t + p, q)` of `G`. The 64 blocks of 512 rows cover
  the 32768 rows, so the array ends holding `G`.
-/
import proofs.«106379_j43379169690208_1_alg».proof.Proof.Gen.KernelIdeal.Value
import proofs.«106379_j43379169690208_1_alg».proof.Proof.KernelBlock

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.GatingTree Cert

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The printed index maps, decided over the 64 grid points: the windows of `x` and of the result move down the rows
    with the point; the other three stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, read off the arguments -/

/-- Row `p` of point `t`'s block of `x` is row `512 t + p` of `x`. -/
theorem xblock_apply (c : Dev nD) (t : Fin cfg0.N) (p : Fin 512) (k : Fin 2048) (hr : 512 * t.val + p.val < 32768) :
    (iblk m c 0 t : Vec Ideal S512x2048 .f32) (ix2 p k)
      = (m ((c : Thread nD τ).loc main_arg0) : S32768x2048.Idx → Elt Ideal .f32) (ix2 ⟨512 * t.val + p.val, hr⟩ k) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- Every point's block of `w` is `w`. -/
theorem wblock_eq (c : Dev nD) (t : Fin cfg0.N) :
    (iblk m c 1 t : Vec Ideal S2048x63 .f32) = (m ((c : Thread nD τ).loc main_arg1) : S2048x63.Idx → Elt Ideal .f32) := by
  obtain ⟨-, -, e0, e1, -⟩ := idx_facts t
  funext y
  unfold iblk
  rw [View.read_apply]
  show V m c main_arg1 _ = m ((c : Thread nD τ).loc main_arg1) _
  unfold V
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 63 + 1 * (y 1).val = (y 1).val; rw [e1]; omega

/-- Every point's block of `b` is `b`. -/
theorem bblock_eq (c : Dev nD) (t : Fin cfg0.N) :
    (iblk m c 2 t : Vec Ideal S63 .f32) = (m ((c : Thread nD τ).loc main_arg2) : S63.Idx → Elt Ideal .f32) := by
  obtain ⟨-, -, -, -, e0, -⟩ := idx_facts t
  funext y
  unfold iblk
  rw [View.read_apply]
  show V m c main_arg2 _ = m ((c : Thread nD τ).loc main_arg2) _
  unfold V
  congr 1
  funext a
  apply Fin.ext
  match a with
  | ⟨0, _⟩ => show win0_2.index t (0 : Fin 1) * 63 + 1 * (y 0).val = (y 0).val; rw [e0]; omega

/-- Every point's block of the responses is the responses. -/
theorem rblock_eq (c : Dev nD) (t : Fin cfg0.N) :
    (iblk m c 3 t : Vec Ideal S64x2048 .f32) = (m ((c : Thread nD τ).loc main_arg3) : S64x2048.Idx → Elt Ideal .f32) := by
  obtain ⟨-, -, -, -, -, e0, e1, -⟩ := idx_facts t
  funext y
  unfold iblk
  rw [View.read_apply]
  show V m c main_arg3 _ = m ((c : Thread nD τ).loc main_arg3) _
  unfold V
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 2048 + 1 * (y 1).val = (y 1).val; rw [e1]; omega

/-! ## What a point writes back -/

/-- The result as a function of the arguments as launched. -/
abbrev result (c : Dev nD) : S32768x2048.Idx → Elt Ideal .f32 :=
  G (m ((c : Thread nD τ).loc main_arg0)) (m ((c : Thread nD τ).loc main_arg1)) (m ((c : Thread nD τ).loc main_arg2))
    (m ((c : Thread nD τ).loc main_arg3))

/-- WHAT POINT `t` WRITES BACK is block `t` of `G` of the arguments. -/
theorem flushed_eq (c : Dev nD) (t : Fin cfg0.N) :
    (dats m 0 c).flushed 4 t = ((cfg0.win 4).blk t).view.read (Elt Ideal) (result m c) := by
  obtain ⟨-, -, -, -, -, -, -, e0, e1⟩ := idx_facts t
  have ht : t.val < 64 := by have := t.isLt; have hN : cfg0.N = 64 := N_0; omega
  rw [flushed4]
  unfold out0_4
  rw [View.canon_unit_zero zero2]
  simp only [View.ld_unit_zero (S := S512x2048) zero2, View.ld_unit_zero (S := S2048x63) zero2,
    View.ld_unit_zero (S := S63) zero1, View.ld_unit_zero (S := S64x2048) zero2]
  funext j
  obtain ⟨p, q, rfl⟩ : ∃ (p : Fin 512) (q : Fin 2048), j = ix2 p q := ⟨j 0, j 1, eq_ix2 j⟩
  have hr : 512 * t.val + p.val < 32768 := by have := p.isLt; omega
  have hemb : ((cfg0.win 4).blk t).view.emb (ix2 p q) = (ix2 ⟨512 * t.val + p.val, hr⟩ q : S32768x2048.Idx) := by
    funext a
    apply Fin.ext
    match a with
    | ⟨0, _⟩ => show win0_4.index t (0 : Fin 2) * 512 + 1 * p.val = 512 * t.val + p.val; rw [e0]; omega
    | ⟨1, _⟩ => show win0_4.index t (1 : Fin 2) * 2048 + 1 * q.val = q.val; rw [e1]; omega
  show k0_pay1 (F := Ideal) (iblk m c 3 t) (k0_pay3 (iblk m c 0 t) (iblk m c 1 t) (iblk m c 2 t))
      (k0_pay4 (iblk m c 0 t) (iblk m c 1 t) (iblk m c 2 t)) (k0_pay5 (iblk m c 0 t) (iblk m c 1 t) (iblk m c 2 t))
      (Scalar.ofBits .f32 0x3F800000#32) (ix2 p q)
    = result m c (((cfg0.win 4).blk t).view.emb (ix2 p q))
  rw [hemb]
  refine (Block.stored_apply (iblk m c 0 t) (iblk m c 1 t) (iblk m c 2 t) (iblk m c 3 t) p q).trans ?_
  show rowOut (fun k => (iblk m c 0 t : Vec Ideal S512x2048 .f32) (ix2 p k)) (iblk m c 1 t) (iblk m c 2 t) (iblk m c 3 t) q
    = rowOut (fun k => (m ((c : Thread nD τ).loc main_arg0) : S32768x2048.Idx → Elt Ideal .f32) (ix2 ⟨512 * t.val + p.val, hr⟩ k))
        (m ((c : Thread nD τ).loc main_arg1)) (m ((c : Thread nD τ).loc main_arg2)) (m ((c : Thread nD τ).loc main_arg3)) q
  rw [wblock_eq m c t, bblock_eq m c t, rblock_eq m c t,
    show (fun k : Fin 2048 => (iblk m c 0 t : Vec Ideal S512x2048 .f32) (ix2 p k))
      = fun k => (m ((c : Thread nD τ).loc main_arg0) : S32768x2048.Idx → Elt Ideal .f32) (ix2 ⟨512 * t.val + p.val, hr⟩ k)
      from funext fun k => xblock_apply m c t p k hr]

/-! ## The blocks cover the array -/

/-- An index of the result is in point `t`'s block iff each coordinate is in the block's range on its axis. -/
theorem mem_blk (t : Fin cfg0.N) (i : S32768x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v0).slice (win0_4.rect t)).set ↔ _
  rw [View.set_slice_whole, Rect.mem_set_unit]
  exact Iff.rfl

/-- Row `r` is written by point `r / 512`. -/
theorem cover (i : S32768x2048.Idx) :
    ∃ t : Fin cfg0.N, (cfg0.win 4).flush t = true ∧ i ∈ ((cfg0.win 4).blk t).view.set := by
  have hi0 : (i 0).val < 32768 := (i 0).isLt
  have hi1 : (i 1).val < 2048 := (i 1).isLt
  have hN : cfg0.N = 64 := N_0
  have hq : (i 0).val / 512 < cfg0.N := by rw [hN]; omega
  obtain ⟨-, -, -, -, -, -, -, e0, e1⟩ := idx_facts ⟨(i 0).val / 512, hq⟩
  refine ⟨⟨(i 0).val / 512, hq⟩, flush0_4 _, ?_⟩
  rw [mem_blk]
  intro a
  match a with
  | ⟨0, _⟩ =>
    show win0_4.index ⟨(i 0).val / 512, hq⟩ (0 : Fin 2) * 512 ≤ (i 0).val
      ∧ (i 0).val < win0_4.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win0_4.index ⟨(i 0).val / 512, hq⟩ (1 : Fin 2) * 2048 ≤ (i 1).val
      ∧ (i 1).val < win0_4.index ⟨(i 0).val / 512, hq⟩ (1 : Fin 2) * 2048 + 2048
    rw [e1]
    omega

/-- THE ARRAY after the run is `G` of the arguments. -/
theorem final (c : Dev nD) : (dats m 0 c).arrAt 4 cfg0.N = result m c :=
  (dats m 0 c).arrAt_eq_of_cover 4 (result m c) (fun t _ => flushed_eq m c t) cover

/-! ## The run, read -/

/-- The frame run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.ReferenceRun.lean ====
/-
  The reference program's run, read back in stretches.

  The reference is a straight line of 57 tensor operations. Its result is stated here over NAMED STAGES — the gates
  `gatesOf`, one tree level `stepOf`, the leaf weights `leavesOf`, the result `resultOf` — so that each stage appears
  once however many later operations read it (written out in full, every level would hold the level before twice,
  and the gates sixty-four times over). The operation list is cut into eight stretches: the twelve operations up to
  the gates, one stretch per tree level (each ending in the level's concatenation), and the closing matrix product.
  What a stretch leaves in the buffers is computed for an ARBITRARY valuation at its entry, so the stretches compose by
  `after_append` and each computation is short.
-/
import proofs.«106379_j43379169690208_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An f32 array of shape `s`, as a buffer's contents. -/
abbrev Arr (F : FTy → Type) (s : Shape) : Type := (⟨s, .f32⟩ : BufTy).Contents (Elt F)

/-! ## The stages -/

/-- The `[32768, 63]` gates: `1 / (1 + exp (−(x · w + b)))`, the bias made a row and spread down the rows. -/
def gatesOf (x : Arr F S32768x2048) (w : Arr F S2048x63) (b : Arr F S63) : Arr F S32768x63 :=
  Host.divf (broadcastInDim S32768x63 ![] bcast_S_S32768x63 (constant S_ .f32 0x3F800000#32))
    (addf (broadcastInDim S32768x63 ![] bcast_S_S32768x63 (constant S_ .f32 0x3F800000#32))
      (Host.exp (Host.negf (addf (Host.dotGeneral dot_S32768x2048_S2048x63_S32768x63_1_0_0_1_n_n none x w)
        (broadcastInDim S32768x63 ![0, 1] bcast_S1x63_S32768x63_0_1 (broadcastInDim S1x63 ![1] bcast_S63_S1x63_1 b))))))

/-- One level of the tree: columns `off … off + n − 1` of the gates times the running weights, beside one minus those
    columns times the running weights. -/
def stepOf (n m off : ℕ) (hs : S32768x63.Slices ![0, off] ⟨2, ![32768, n]⟩) (hb : S_.BroadcastsInDim ⟨2, ![32768, n]⟩ ![])
    (hc : Shape.Concatenates [(⟨2, ![32768, n]⟩ : Shape), ⟨2, ![32768, n]⟩] ⟨2, ![32768, m]⟩ 1)
    (gt : Arr F S32768x63) (run : Arr F ⟨2, ![32768, n]⟩) : Arr F ⟨2, ![32768, m]⟩ :=
  concatenate (⟨2, ![32768, m]⟩ : Shape) 1
    [⟨(⟨2, ![32768, n]⟩ : Shape), mulf (extractStridedSlice ⟨2, ![32768, n]⟩ ![0, off] gt hs) run⟩,
     ⟨(⟨2, ![32768, n]⟩ : Shape), mulf (subf (broadcastInDim ⟨2, ![32768, n]⟩ ![] hb (constant S_ .f32 0x3F800000#32))
        (extractStridedSlice ⟨2, ![32768, n]⟩ ![0, off] gt hs)) run⟩] hc

/-- The `[32768, 64]` leaf weights: six levels from a column of ones. -/
def leavesOf (gt : Arr F S32768x63) : Arr F S32768x64 :=
  stepOf 32 64 31 slices_S32768x63_S32768x32_0_31 bcast_S_S32768x32 concatenates_S32768x32_S32768x32_S32768x64_d1 gt
    (stepOf 16 32 15 slices_S32768x63_S32768x16_0_15 bcast_S_S32768x16 concatenates_S32768x16_S32768x16_S32768x32_d1 gt
      (stepOf 8 16 7 slices_S32768x63_S32768x8_0_7 bcast_S_S32768x8 concatenates_S32768x8_S32768x8_S32768x16_d1 gt
        (stepOf 4 8 3 slices_S32768x63_S32768x4_0_3 bcast_S_S32768x4 concatenates_S32768x4_S32768x4_S32768x8_d1 gt
          (stepOf 2 4 1 slices_S32768x63_S32768x2_0_1 bcast_S_S32768x2 concatenates_S32768x2_S32768x2_S32768x4_d1 gt
            (stepOf 1 2 0 slices_S32768x63_S32768x1_0_0 bcast_S_S32768x1 concatenates_S32768x1_S32768x1_S32768x2_d1 gt
              (broadcastInDim S32768x1 ![] bcast_S_S32768x1 (constant S_ .f32 0x3F800000#32)))))))

/-- The result: the leaf weights times the responses. -/
def resultOf (x : Arr F S32768x2048) (w : Arr F S2048x63) (b : Arr F S63) (resp : Arr F S64x2048) : Arr F S32768x2048 :=
  Host.dotGeneral dot_S32768x64_S64x2048_S32768x2048_1_0_0_1_n_n none (leavesOf (gatesOf x w b)) resp

/-! ## @main's operations, in eight stretches -/

/-- Up to the gates. -/
abbrev gateOps : List (HloOp τ sig (Elt F)) :=
  [ binary main_arg0 main_arg1 main_v0 ((fun l r => Host.dotGeneral dot_S32768x2048_S2048x63_S32768x63_1_0_0_1_n_n none l r) : Arr F S32768x2048 → Arr F S2048x63 → Arr F S32768x63),
    unary main_arg2 main_v1 (broadcastInDim S1x63 ![1] bcast_S63_S1x63_1 : Arr F S63 → Arr F S1x63),
    unary main_v1 main_v2 (broadcastInDim S32768x63 ![0, 1] bcast_S1x63_S32768x63_0_1 : Arr F S1x63 → Arr F S32768x63),
    binary main_v0 main_v2 main_v3 (addf : Arr F S32768x63 → Arr F S32768x63 → Arr F S32768x63),
    unary main_v3 main_v4 (Host.negf : Arr F S32768x63 → Arr F S32768x63),
    unary main_v4 main_v5 (Host.exp : Arr F S32768x63 → Arr F S32768x63),
    nullary main_cst (constant S_ .f32 0x3F800000#32),
    unary main_cst main_v6 (broadcastInDim S32768x63 ![] bcast_S_S32768x63 : Arr F S_ → Arr F S32768x63),
    binary main_v6 main_v5 main_v7 (addf : Arr F S32768x63 → Arr F S32768x63 → Arr F S32768x63),
    nullary main_cst_0 (constant S_ .f32 0x3F800000#32),
    unary main_cst_0 main_v8 (broadcastInDim S32768x63 ![] bcast_S_S32768x63 : Arr F S_ → Arr F S32768x63),
    binary main_v8 main_v7 main_v9 (Host.divf : Arr F S32768x63 → Arr F S32768x63 → Arr F S32768x63) ]

/-- The root's two children. -/
abbrev level1Ops : List (HloOp τ sig (Elt F)) :=
  [ nullary main_cst_1 (constant S_ .f32 0x3F800000#32),
    unary main_cst_1 main_v10 (broadcastInDim S32768x1 ![] bcast_S_S32768x1 : Arr F S_ → Arr F S32768x1),
    unary main_v9 main_v11 ((extractStridedSlice S32768x1 ![0, 0] · slices_S32768x63_S32768x1_0_0) : Arr F S32768x63 → Arr F S32768x1),
    binary main_v11 main_v10 main_v12 (mulf : Arr F S32768x1 → Arr F S32768x1 → Arr F S32768x1),
    nullary main_cst_2 (constant S_ .f32 0x3F800000#32),
    unary main_cst_2 main_v13 (broadcastInDim S32768x1 ![] bcast_S_S32768x1 : Arr F S_ → Arr F S32768x1),
    binary main_v13 main_v11 main_v14 (subf : Arr F S32768x1 → Arr F S32768x1 → Arr F S32768x1),
    binary main_v14 main_v10 main_v15 (mulf : Arr F S32768x1 → Arr F S32768x1 → Arr F S32768x1),
    binary main_v12 main_v15 main_v16 ((fun a b => concatenate S32768x2 1 [⟨S32768x1, a⟩, ⟨S32768x1, b⟩] concatenates_S32768x1_S32768x1_S32768x2_d1) : Arr F S32768x1 → Arr F S32768x1 → Arr F S32768x2) ]

abbrev level2Ops : List (HloOp τ sig (Elt F)) :=
  [ unary main_v9 main_v17 ((extractStridedSlice S32768x2 ![0, 1] · slices_S32768x63_S32768x2_0_1) : Arr F S32768x63 → Arr F S32768x2),
    binary main_v17 main_v16 main_v18 (mulf : Arr F S32768x2 → Arr F S32768x2 → Arr F S32768x2),
    nullary main_cst_3 (constant S_ .f32 0x3F800000#32),
    unary main_cst_3 main_v19 (broadcastInDim S32768x2 ![] bcast_S_S32768x2 : Arr F S_ → Arr F S32768x2),
    binary main_v19 main_v17 main_v20 (subf : Arr F S32768x2 → Arr F S32768x2 → Arr F S32768x2),
    binary main_v20 main_v16 main_v21 (mulf : Arr F S32768x2 → Arr F S32768x2 → Arr F S32768x2),
    binary main_v18 main_v21 main_v22 ((fun a b => concatenate S32768x4 1 [⟨S32768x2, a⟩, ⟨S32768x2, b⟩] concatenates_S32768x2_S32768x2_S32768x4_d1) : Arr F S32768x2 → Arr F S32768x2 → Arr F S32768x4) ]

abbrev level3Ops : List (HloOp τ sig (Elt F)) :=
  [ unary main_v9 main_v23 ((extractStridedSlice S32768x4 ![0, 3] · slices_S32768x63_S32768x4_0_3) : Arr F S32768x63 → Arr F S32768x4),
    binary main_v23 main_v22 main_v24 (mulf : Arr F S32768x4 → Arr F S32768x4 → Arr F S32768x4),
    nullary main_cst_4 (constant S_ .f32 0x3F800000#32),
    unary main_cst_4 main_v25 (broadcastInDim S32768x4 ![] bcast_S_S32768x4 : Arr F S_ → Arr F S32768x4),
    binary main_v25 main_v23 main_v26 (subf : Arr F S32768x4 → Arr F S32768x4 → Arr F S32768x4),
    binary main_v26 main_v22 main_v27 (mulf : Arr F S32768x4 → Arr F S32768x4 → Arr F S32768x4),
    binary main_v24 main_v27 main_v28 ((fun a b => concatenate S32768x8 1 [⟨S32768x4, a⟩, ⟨S32768x4, b⟩] concatenates_S32768x4_S32768x4_S32768x8_d1) : Arr F S32768x4 → Arr F S32768x4 → Arr F S32768x8) ]

abbrev level4Ops : List (HloOp τ sig (Elt F)) :=
  [ unary main_v9 main_v29 ((extractStridedSlice S32768x8 ![0, 7] · slices_S32768x63_S32768x8_0_7) : Arr F S32768x63 → Arr F S32768x8),
    binary main_v29 main_v28 main_v30 (mulf : Arr F S32768x8 → Arr F S32768x8 → Arr F S32768x8),
    nullary main_cst_5 (constant S_ .f32 0x3F800000#32),
    unary main_cst_5 main_v31 (broadcastInDim S32768x8 ![] bcast_S_S32768x8 : Arr F S_ → Arr F S32768x8),
    binary main_v31 main_v29 main_v32 (subf : Arr F S32768x8 → Arr F S32768x8 → Arr F S32768x8),
    binary main_v32 main_v28 main_v33 (mulf : Arr F S32768x8 → Arr F S32768x8 → Arr F S32768x8),
    binary main_v30 main_v33 main_v34 ((fun a b => concatenate S32768x16 1 [⟨S32768x8, a⟩, ⟨S32768x8, b⟩] concatenates_S32768x8_S32768x8_S32768x16_d1) : Arr F S32768x8 → Arr F S32768x8 → Arr F S32768x16) ]

abbrev level5Ops : List (HloOp τ sig (Elt F)) :=
  [ unary main_v9 main_v35 ((extractStridedSlice S32768x16 ![0, 15] · slices_S32768x63_S32768x16_0_15) : Arr F S32768x63 → Arr F S32768x16),
    binary main_v35 main_v34 main_v36 (mulf : Arr F S32768x16 → Arr F S32768x16 → Arr F S32768x16),
    nullary main_cst_6 (constant S_ .f32 0x3F800000#32),
    unary main_cst_6 main_v37 (broadcastInDim S32768x16 ![] bcast_S_S32768x16 : Arr F S_ → Arr F S32768x16),
    binary main_v37 main_v35 main_v38 (subf : Arr F S32768x16 → Arr F S32768x16 → Arr F S32768x16),
    binary main_v38 main_v34 main_v39 (mulf : Arr F S32768x16 → Arr F S32768x16 → Arr F S32768x16),
    binary main_v36 main_v39 main_v40 ((fun a b => concatenate S32768x32 1 [⟨S32768x16, a⟩, ⟨S32768x16, b⟩] concatenates_S32768x16_S32768x16_S32768x32_d1) : Arr F S32768x16 → Arr F S32768x16 → Arr F S32768x32) ]

abbrev level6Ops : List (HloOp τ sig (Elt F)) :=
  [ unary main_v9 main_v41 ((extractStridedSlice S32768x32 ![0, 31] · slices_S32768x63_S32768x32_0_31) : Arr F S32768x63 → Arr F S32768x32),
    binary main_v41 main_v40 main_v42 (mulf : Arr F S32768x32 → Arr F S32768x32 → Arr F S32768x32),
    nullary main_cst_7 (constant S_ .f32 0x3F800000#32),
    unary main_cst_7 main_v43 (broadcastInDim S32768x32 ![] bcast_S_S32768x32 : Arr F S_ → Arr F S32768x32),
    binary main_v43 main_v41 main_v44 (subf : Arr F S32768x32 → Arr F S32768x32 → Arr F S32768x32),
    binary main_v44 main_v40 main_v45 (mulf : Arr F S32768x32 → Arr F S32768x32 → Arr F S32768x32),
    binary main_v42 main_v45 main_v46 ((fun a b => concatenate S32768x64 1 [⟨S32768x32, a⟩, ⟨S32768x32, b⟩] concatenates_S32768x32_S32768x32_S32768x64_d1) : Arr F S32768x32 → Arr F S32768x32 → Arr F S32768x64) ]

/-- The closing product. -/
abbrev outOps : List (HloOp τ sig (Elt F)) :=
  [ binary main_v46 main_arg3 main_v47 ((fun l r => Host.dotGeneral dot_S32768x64_S64x2048_S32768x2048_1_0_0_1_n_n none l r) : Arr F S32768x64 → Arr F S64x2048 → Arr F S32768x2048) ]

/-- @main's 57 operations, in order. -/
abbrev ops : List (HloOp τ sig (Elt F)) :=
  gateOps ++ (level1Ops ++ (level2Ops ++ (level3Ops ++ (level4Ops ++ (level5Ops ++ (level6Ops ++ outOps))))))

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the run, stretch by stretch -/

theorem gateOps_sub : (gateOps : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩
theorem level1Ops_sub : (level1Ops : List (HloOp τ sig (Elt F))).Forall fun op => op.bufs ⊆ tcRefs τ sig :=
  ⟨nullary_bufs_sub .., unary_bufs_sub .., unary_bufs_sub .., binary_bufs_sub .., nullary_bufs_sub .., unary_bufs_sub ..,
    binary_bufs_sub .., binary_bufs_sub .., binary_bufs_sub ..⟩
theorem level2Ops_sub : (level2Ops : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩
theorem level3Ops_sub : (level3Ops : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩
theorem level4Ops_sub : (level4Ops : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩
theorem level5Ops_sub : (level5Ops : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩
theorem level6Ops_sub : (level6Ops : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub ..⟩
theorem outOps_sub : (outOps : List (HloOp τ sig (Elt F))).Forall fun op => op.bufs ⊆ tcRefs τ sig :=
  binary_bufs_sub ..

/-- A property of every operation of two lines holds of every operation of the two laid end to end. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append gateOps_sub (forall_append level1Ops_sub (forall_append level2Ops_sub (forall_append level3Ops_sub
    (forall_append level4Ops_sub (forall_append level5Ops_sub (forall_append level6Ops_sub outOps_sub))))))

/-- Every operation determines its results: none allocates. -/
theorem ops_fresh : ∀ op ∈ (ops : List (HloOp τ sig (Elt F))), op.fresh = ∅ := by
  have hg : ∀ op ∈ (gateOps : List (HloOp τ sig (Elt F))), op.fresh = ∅ := by
    intro _ h; (repeat (cases h with | head => rfl | tail _ h => ?_)); exact nomatch h
  have h1 : ∀ op ∈ (level1Ops : List (HloOp τ sig (Elt F))), op.fresh = ∅ := by
    intro _ h; (repeat (cases h with | head => rfl | tail _ h => ?_)); exact nomatch h
  have h2 : ∀ op ∈ (level2Ops : List (HloOp τ sig (Elt F))), op.fresh = ∅ := by
    intro _ h; (repeat (cases h with | head => rfl | tail _ h => ?_)); exact nomatch h
  have h3 : ∀ op ∈ (level3Ops : List (HloOp τ sig (Elt F))), op.fresh = ∅ := by
    intro _ h; (repeat (cases h with | head => rfl | tail _ h => ?_)); exact nomatch h
  have h4 : ∀ op ∈ (level4Ops : List (HloOp τ sig (Elt F))), op.fresh = ∅ := by
    intro _ h; (repeat (cases h with | head => rfl | tail _ h => ?_)); exact nomatch h
  have h5 : ∀ op ∈ (level5Ops : List (HloOp τ sig (Elt F))), op.fresh = ∅ := by
    intro _ h; (repeat (cases h with | head => rfl | tail _ h => ?_)); exact nomatch h
  have h6 : ∀ op ∈ (level6Ops : List (HloOp τ sig (Elt F))), op.fresh = ∅ := by
    intro _ h; (repeat (cases h with | head => rfl | tail _ h => ?_)); exact nomatch h
  have ho : ∀ op ∈ (outOps : List (HloOp τ sig (Elt F))), op.fresh = ∅ := by
    intro _ h; (repeat (cases h with | head => rfl | tail _ h => ?_)); exact nomatch h
  intro op h
  rcases List.mem_append.mp h with h | h
  · exact hg op h
  rcases List.mem_append.mp h with h | h
  · exact h1 op h
  rcases List.mem_append.mp h with h | h
  · exact h2 op h
  rcases List.mem_append.mp h with h | h
  · exact h3 op h
  rcases List.mem_append.mp h with h | h
  · exact h4 op h
  rcases List.mem_append.mp h with h | h
  · exact h5 op h
  rcases List.mem_append.mp h with h | h
  · exact h6 op h
  · exact ho op h

/-! ## What each stretch leaves, from any contents at its entry -/

section Stretches
variable (W : Valuation τ sig (Elt F))

theorem gate_result : after gateOps W (Proc.devRef .tc main_v9)
    = gatesOf (W (Proc.devRef .tc main_arg0)) (W (Proc.devRef .tc main_arg1)) (W (Proc.devRef .tc main_arg2)) := by
  after_results
  rfl
theorem gate_arg3 : after gateOps W (Proc.devRef .tc main_arg3) = W (Proc.devRef .tc main_arg3) := by after_results_simp

theorem level1_result : after level1Ops W (Proc.devRef .tc main_v16)
    = stepOf 1 2 0 slices_S32768x63_S32768x1_0_0 bcast_S_S32768x1 concatenates_S32768x1_S32768x1_S32768x2_d1 (W (Proc.devRef .tc main_v9))
        (broadcastInDim S32768x1 ![] bcast_S_S32768x1 (constant S_ .f32 0x3F800000#32)) := by
  after_results
  rfl
theorem level1_v9 : after level1Ops W (Proc.devRef .tc main_v9) = W (Proc.devRef .tc main_v9) := by after_results_simp
theorem level1_arg3 : after level1Ops W (Proc.devRef .tc main_arg3) = W (Proc.devRef .tc main_arg3) := by after_results_simp

theorem level2_result : after level2Ops W (Proc.devRef .tc main_v22)
    = stepOf 2 4 1 slices_S32768x63_S32768x2_0_1 bcast_S_S32768x2 concatenates_S32768x2_S32768x2_S32768x4_d1 (W (Proc.devRef .tc main_v9))
        (W (Proc.devRef .tc main_v16)) := by
  after_results
  rfl
theorem level2_v9 : after level2Ops W (Proc.devRef .tc main_v9) = W (Proc.devRef .tc main_v9) := by after_results_simp
theorem level2_arg3 : after level2Ops W (Proc.devRef .tc main_arg3) = W (Proc.devRef .tc main_arg3) := by after_results_simp

theorem level3_result : after level3Ops W (Proc.devRef .tc main_v28)
    = stepOf 4 8 3 slices_S32768x63_S32768x4_0_3 bcast_S_S32768x4 concatenates_S32768x4_S32768x4_S32768x8_d1 (W (Proc.devRef .tc main_v9))
        (W (Proc.devRef .tc main_v22)) := by
  after_results
  rfl
theorem level3_v9 : after level3Ops W (Proc.devRef .tc main_v9) = W (Proc.devRef .tc main_v9) := by after_results_simp
theorem level3_arg3 : after level3Ops W (Proc.devRef .tc main_arg3) = W (Proc.devRef .tc main_arg3) := by after_results_simp

theorem level4_result : after level4Ops W (Proc.devRef .tc main_v34)
    = stepOf 8 16 7 slices_S32768x63_S32768x8_0_7 bcast_S_S32768x8 concatenates_S32768x8_S32768x8_S32768x16_d1 (W (Proc.devRef .tc main_v9))
        (W (Proc.devRef .tc main_v28)) := by
  after_results
  rfl
theorem level4_v9 : after level4Ops W (Proc.devRef .tc main_v9) = W (Proc.devRef .tc main_v9) := by after_results_simp
theorem level4_arg3 : after level4Ops W (Proc.devRef .tc main_arg3) = W (Proc.devRef .tc main_arg3) := by after_results_simp

theorem level5_result : after level5Ops W (Proc.devRef .tc main_v40)
    = stepOf 16 32 15 slices_S32768x63_S32768x16_0_15 bcast_S_S32768x16 concatenates_S32768x16_S32768x16_S32768x32_d1 (W (Proc.devRef .tc main_v9))
        (W (Proc.devRef .tc main_v34)) := by
  after_results
  rfl
theorem level5_v9 : after level5Ops W (Proc.devRef .tc main_v9) = W (Proc.devRef .tc main_v9) := by after_results_simp
theorem level5_arg3 : after level5Ops W (Proc.devRef .tc main_arg3) = W (Proc.devRef .tc main_arg3) := by after_results_simp

theorem level6_result : after level6Ops W (Proc.devRef .tc main_v46)
    = stepOf 32 64 31 slices_S32768x63_S32768x32_0_31 bcast_S_S32768x32 concatenates_S32768x32_S32768x32_S32768x64_d1 (W (Proc.devRef .tc main_v9))
        (W (Proc.devRef .tc main_v40)) := by
  after_results
  rfl
theorem level6_arg3 : after level6Ops W (Proc.devRef .tc main_arg3) = W (Proc.devRef .tc main_arg3) := by after_results_simp

theorem out_result : after outOps W (Proc.devRef .tc main_v47)
    = Host.dotGeneral dot_S32768x64_S64x2048_S32768x2048_1_0_0_1_n_n none (W (Proc.devRef .tc main_v46)) (W (Proc.devRef .tc main_arg3)) := by
  after_results

end Stretches

/-! ## The whole line -/

/-- After all 57 operations the result buffer holds `resultOf` of the arguments' contents at entry. -/
theorem after_ops (V : Valuation τ sig (Elt F)) :
    after ops V (Proc.devRef .tc main_v47)
      = resultOf (V (Proc.devRef .tc main_arg0)) (V (Proc.devRef .tc main_arg1)) (V (Proc.devRef .tc main_arg2)) (V (Proc.devRef .tc main_arg3)) := by
  simp only [StableHlo.after_append]
  rw [out_result, level6_result, level6_arg3, level5_result, level5_v9, level5_arg3, level4_result, level4_v9, level4_arg3,
    level3_result, level3_v9, level3_arg3, level2_result, level2_v9, level2_arg3, level1_result, level1_v9, level1_arg3,
    gate_result, gate_arg3]
  rfl

/-- An argument's buffer is written by no operation. -/
theorem after_ops_arg (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  refine ⟨?_, ?_, ?_, ?_⟩ <;>
  · simp only [List.cons_append, List.nil_append]
    after_results_simp

/-- On every device, for any float values, from any memory with zero counters: every weakly fair execution of @main
    terminates with the result at `resultOf` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = resultOf (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (after_ops _),
      (h c main_arg0).trans (after_ops_arg _).1,
      (h c main_arg1).trans (after_ops_arg _).2.1,
      (h c main_arg2).trans (after_ops_arg _).2.2.1,
      (h c main_arg3).trans (after_ops_arg _).2.2.2⟩)
    (run_seq scopedRefs_eq scopedSems_eq defs main (fun _ => ops) main_eq (fun _ => ops_sub) m ρ (fun _ => ops_fresh))

end Cert.ReferenceIdeal.RefRun

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«106379_j43379169690208_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.Reference.lean ====
/-
  The reference program's result, entry by entry, is the gating tree's output `GatingTree.G` of its arguments.

  The reference computes the `[32768, 63]` gates as `1 / (1 + exp (−(x · w + b)))`, which on the extended reals is the
  logistic function by definition; then six times it cuts the next level's columns out of the gates, multiplies them
  (and one minus them) into the running weights and joins the two halves along the columns — one `level_apply` each,
  at 32768 rows —; and last multiplies the `[32768, 64]` leaf weights into the `[64, 2048]` responses, a sum over the
  64 leaves at each entry.
-/
import proofs.«106379_j43379169690208_1_alg».proof.Proof.ReferenceRun
import proofs.«106379_j43379169690208_1_alg».proof.Proof.GatingTree
import proofs.«106379_j43379169690208_1_alg».proof.Proof.LibHostRows

noncomputable section

open scoped BigOperators

namespace Cert.ReferenceIdeal.RefValue

open Cert.ReferenceIdeal Cert.ReferenceIdeal.Gen Cert.ReferenceIdeal.RefRun Idealize.ShloMosaic Idealize.ShloMosaic.ValueIdx
  Cert.GatingTree Cert

/-- The two matrix products are plain ones: rows by columns, one contracted axis. -/
theorem dot_gates_plain : dot_S32768x2048_S2048x63_S32768x63_1_0_0_1_n_n = DotDims.plain 32768 2048 63 := rfl
theorem dot_out_plain : dot_S32768x64_S64x2048_S32768x2048_1_0_0_1_n_n = DotDims.plain 32768 64 2048 := rfl

/-- The gate of node `c` in row `r`: jax spells the logistic function as the quotient `1 / (1 + exp (−z))`, and on the
    extended reals that quotient is the function. The affine form `z` is row `r` of `x` against column `c` of `w`, plus
    `b c` (the bias made a row, then spread down the rows). -/
theorem gates (x : Arr Ideal S32768x2048) (w : Arr Ideal S2048x63) (b : Arr Ideal S63) (r : Fin 32768) (c : ℕ) (h : c < 63) :
    gatesOf (F := Ideal) x w b (ix2 r ⟨c, h⟩) = gate (fun k => x (ix2 r k)) w b c := by
  have e1 : broadcastInDim S32768x63 ![] bcast_S_S32768x63 (constant (F := Ideal) S_ .f32 0x3F800000#32) (ix2 r (⟨c, h⟩ : Fin 63))
      = (1 : EReal) :=
    (LibHostRows.bcast_scalar_apply _ _ _).trans one_eq
  have e2 : Host.dotGeneral (F := Ideal) (φ₁ := .f32) (φ₂ := .f32) dot_S32768x2048_S2048x63_S32768x63_1_0_0_1_n_n none x w (ix2 r (⟨c, h⟩ : Fin 63))
      = ∑ k : Fin 2048, x (ix2 r k) * w (ix2 k ⟨c, h⟩) := by
    rw [dot_gates_plain]
    exact LibHostRows.dotGeneral_plain_apply 32768 2048 63 _ x w r ⟨c, h⟩
  have e3 : broadcastInDim S32768x63 ![0, 1] bcast_S1x63_S32768x63_0_1 (broadcastInDim S1x63 ![1] bcast_S63_S1x63_1 b)
      (ix2 r (⟨c, h⟩ : Fin 63)) = b (ix1 ⟨c, h⟩) :=
    (LibHostRows.bcast_row_apply _ _ r ⟨c, h⟩).trans (LibHostRows.bcast_vec_row_apply _ b 0 ⟨c, h⟩)
  unfold gate
  rw [dif_pos h]
  show Ideal.div (broadcastInDim S32768x63 ![] bcast_S_S32768x63 (constant (F := Ideal) S_ .f32 0x3F800000#32) (ix2 r (⟨c, h⟩ : Fin 63)))
      (broadcastInDim S32768x63 ![] bcast_S_S32768x63 (constant (F := Ideal) S_ .f32 0x3F800000#32) (ix2 r (⟨c, h⟩ : Fin 63))
        + Ideal.exp (-(Host.dotGeneral (F := Ideal) (φ₁ := .f32) (φ₂ := .f32) dot_S32768x2048_S2048x63_S32768x63_1_0_0_1_n_n none x w (ix2 r (⟨c, h⟩ : Fin 63))
            + broadcastInDim S32768x63 ![0, 1] bcast_S1x63_S32768x63_0_1 (broadcastInDim S1x63 ![1] bcast_S63_S1x63_1 b)
                (ix2 r (⟨c, h⟩ : Fin 63))))) = _
  rw [e1, e2, e3]
  rfl

/-- One level of the reference, read at row `r` and column `j`: the matrix of ones it subtracts the gates from is a
    scalar one spread over the level's shape. -/
theorem stepOf_apply (n m off : ℕ) (hm : m = n + n) (hoff : off + n ≤ 63)
    (hs : S32768x63.Slices ![0, off] ⟨2, ![32768, n]⟩) (hb : S_.BroadcastsInDim ⟨2, ![32768, n]⟩ ![])
    (hc : Shape.Concatenates [(⟨2, ![32768, n]⟩ : Shape), ⟨2, ![32768, n]⟩] ⟨2, ![32768, m]⟩ 1)
    (gt : Arr Ideal S32768x63) (run : Arr Ideal ⟨2, ![32768, n]⟩) (r : Fin 32768) (g T : ℕ → EReal)
    (hg : ∀ (c : ℕ) (h : c < 63), gt (ix2 r ⟨c, h⟩) = g c) (hT : ∀ (j : ℕ) (h : j < n), run (ix2 r ⟨j, h⟩) = T j)
    (j : ℕ) (h : j < m) :
    stepOf (F := Ideal) n m off hs hb hc gt run (ix2 r ⟨j, h⟩) = split g off n T j :=
  level_apply 32768 n m off hm hoff gt run _ hs hc r g T hg hT (fun i => LibHostRows.bcast_scalar_apply hb _ i) j h

/-- Row `r` of the leaf weights: six levels from the root's weight one, each read through the level before. -/
theorem leavesOf_apply (gt : Arr Ideal S32768x63) (r : Fin 32768) (g : ℕ → EReal)
    (hg : ∀ (c : ℕ) (h : c < 63), gt (ix2 r ⟨c, h⟩) = g c) (j : ℕ) (h : j < 64) :
    leavesOf (F := Ideal) gt (ix2 r ⟨j, h⟩) = leaves g j := by
  unfold leavesOf leaves
  exact stepOf_apply 32 64 31 rfl (by norm_num) _ _ _ gt _ r g _ hg
    (fun j h => stepOf_apply 16 32 15 rfl (by norm_num) _ _ _ gt _ r g _ hg
      (fun j h => stepOf_apply 8 16 7 rfl (by norm_num) _ _ _ gt _ r g _ hg
        (fun j h => stepOf_apply 4 8 3 rfl (by norm_num) _ _ _ gt _ r g _ hg
          (fun j h => stepOf_apply 2 4 1 rfl (by norm_num) _ _ _ gt _ r g _ hg
            (fun j h => stepOf_apply 1 2 0 rfl (by norm_num) _ _ _ gt _ r g _ hg
              (fun j h => LibHostRows.bcast_scalar_apply _ _ _) j h) j h) j h) j h) j h) j h

/-- The reference's result is the tree's output: at row `r` and column `q`, the leaf weights of row `r` against column
    `q` of the responses — the closing matrix product read as a sum over the 64 leaves. -/
theorem result_eq (x : Arr Ideal S32768x2048) (w : Arr Ideal S2048x63) (b : Arr Ideal S63) (resp : Arr Ideal S64x2048) :
    resultOf (F := Ideal) x w b resp = G x w b resp := by
  funext i
  obtain ⟨r, q, rfl⟩ : ∃ (r : Fin 32768) (q : Fin 2048), i = ix2 r q := ⟨i 0, i 1, eq_ix2 i⟩
  rw [G_apply]
  unfold resultOf rowOut
  rw [dot_out_plain]
  refine (LibHostRows.dotGeneral_plain_apply 32768 64 2048 _ _ resp r q).trans ?_
  refine Finset.sum_congr rfl fun l _ => ?_
  exact congrArg (· * resp (ix2 l q)) (leavesOf_apply (gatesOf x w b) r _ (gates x w b r) l.val l.isLt)

end Cert.ReferenceIdeal.RefValue

end
-- ==== Proof.lean ====
/-
  A hierarchical mixture of experts: sigmoid gates on the 63 internal nodes of a binary tree of depth six, the 64 leaf
  weights built level by level as products of gates `g` and complements `1 − g` along the path from the root, and the
  output row the leaf weights times a `[64, 2048]` table of responses.

  The kernel handles 512 rows of `x` per grid point: gate logits by a matrix product into a zero accumulator plus the
  bias, the logistic function as one operation, the six levels by slicing the next level's columns out of the gates,
  multiplying them (and one minus them) into the running weights and concatenating, and the closing matrix product. The
  reference does the same on all 32768 rows at once, with the logistic function spelt `1 / (1 + exp (−z))`. On the
  extended reals a change of float format is the identity, a matrix product into zero and the host's product are the
  same finite sum, and that quotient is the logistic function by definition; every other step is the same operation on
  both sides. So both results are ONE function `GatingTree.G` of the arguments, entry by entry, and no law of arithmetic
  is needed to join them: finiteness of the inputs is never used.

  `GatingTree` states the tree on plain functions and reads one level of it at an entry, for any number of rows;
  `KernelBlock` reads what the body stores, `KernelArray` the array the 64 blocks make; `ReferenceRun` is the
  reference's run over named stages and `Reference` reads its result. The two frames of the kernel are the generated
  ones; the reference's is its run with the result dropped; the idealization rewrote nothing.
-/
import proofs.«106379_j43379169690208_1_alg».proof.Defs
import proofs.«106379_j43379169690208_1_alg».proof.Proof.Gen.Kernel
import proofs.«106379_j43379169690208_1_alg».proof.Proof.Gen.Kernel.Skeleton
import proofs.«106379_j43379169690208_1_alg».proof.Proof.Gen.Kernel.Launch
import proofs.«106379_j43379169690208_1_alg».proof.Proof.Gen.Kernel.Points
import proofs.«106379_j43379169690208_1_alg».proof.Proof.Gen.Kernel.Frame
import proofs.«106379_j43379169690208_1_alg».proof.Proof.Gen.KernelIdeal
import proofs.«106379_j43379169690208_1_alg».proof.Proof.Gen.KernelIdeal.Skeleton
import proofs.«106379_j43379169690208_1_alg».proof.Proof.Gen.KernelIdeal.Launch
import proofs.«106379_j43379169690208_1_alg».proof.Proof.Gen.KernelIdeal.Points
import proofs.«106379_j43379169690208_1_alg».proof.Proof.Gen.KernelIdeal.Frame
import proofs.«106379_j43379169690208_1_alg».proof.Proof.Gen.ReferenceIdeal
import proofs.«106379_j43379169690208_1_alg».proof.Proof.Gen.Pre_finite_inputs
import proofs.«106379_j43379169690208_1_alg».proof.Proof.Gen.KernelIdeal.Value
import proofs.«106379_j43379169690208_1_alg».proof.Proof.KernelArray
import proofs.«106379_j43379169690208_1_alg».proof.Proof.Reference
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the gating tree's output of the arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
